-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S10000x64 .f32
  ∧ IdealRules.sign_bit.Statement Cert.KernelIdeal.S10000x64 .f32
  ∧ IdealRules.sign_bit.Statement Cert.KernelIdeal.S10000x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S1200000 : S_.BroadcastsInDim S1200000 (![] : Fin 0 → Fin S1200000.rank)
  reducesTo_S1200000_S_d0 : S1200000.ReducesTo [0] S_
  bcast_S_S3x500000x64 : S_.BroadcastsInDim S3x500000x64 (![] : Fin 0 → Fin S3x500000x64.rank)
  reducesTo_S3x500000x64_S_d0_1_2 : S3x500000x64.ReducesTo [0, 1, 2] S_

variable [Facts]

def fn_part1 {F : FTy → Type} [FloatOps F] (main_v13 : IVec S_ 1) (main_v16 : IVec S3x500000x64 1) : IVec S_ 1 :=
  let main_c_5 : IVec S_ 1 := constantI S_ 1 1#1
  let main_v17 : IVec S_ 1 := (fun x v => Host.reduce IntOp.andi x v reducesTo_S3x500000x64_S_d0_1_2 h_S_) main_v16 main_c_5
  let main_v18 : IVec S_ 1 := andi main_v13 main_v17
  main_v18

def fn {F : FTy → Type} [FloatOps F] (main_arg0 : FVec F S200000x64 .f32) (main_arg1 : FVec F S300000x64 .f32) (main_arg2 : FVec F S1200000 .f32) (main_arg3 : FVec F S3x500000x64 .f32) (main_arg4 : IVec S1200000 32) (main_arg5 : IVec S1200000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S1200000 .f32 := Host.absf main_arg2
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  let main_v14 : FVec F S3x500000x64 .f32 := Host.absf main_arg3
  let main_cst_4 : FVec F S_ .f32 := constant S_ .f32 0x7F800000#32
  let main_v15 : FVec F S3x500000x64 .f32 := broadcastInDim S3x500000x64 ![] bcast_S_S3x500000x64 main_cst_4
  let main_v16 : IVec S3x500000x64 1 := cmpf .olt main_v14 main_v15
  fn_part1 (F := F) main_v13 main_v16
-- ==== Kernel.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S500000x64 : Shape := ⟨2, ![500000, 64]⟩
abbrev S_ : Shape := ⟨0, ![]⟩
abbrev S1200000x1 : Shape := ⟨2, ![1200000, 1]⟩
abbrev S1200000x64 : Shape := ⟨2, ![1200000, 64]⟩
abbrev S1x500000x64 : Shape := ⟨3, ![1, 500000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 74
  | .vmem => 30
  | .smem => 0
  | _ => 0

abbrev bufTy : (tb : Table) → Fin (tcTables nBuf tb) → BufTy
  | .hbm, ⟨0, _⟩ => ⟨S200000x64, .f32⟩
  | .hbm, ⟨1, _⟩ => ⟨S300000x64, .f32⟩
  | .hbm, ⟨2, _⟩ => ⟨S1200000, .f32⟩
  | .hbm, ⟨3, _⟩ => ⟨S3x500000x64, .f32⟩
  | .hbm, ⟨4, _⟩ => ⟨S1200000, .i32⟩
  | .hbm, ⟨5, _⟩ => ⟨S1200000, .i32⟩
  | .hbm, ⟨6, _⟩ => ⟨S500000x64, .f32⟩
  | .hbm, ⟨7, _⟩ => ⟨S_, .f32⟩
  | .hbm, ⟨8, _⟩ => ⟨S500000x64, .f32⟩
  | .hbm, ⟨9, _⟩ => ⟨S1200000x1, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S1200000x64, .f32⟩
  | .hbm, ⟨20, _⟩ => ⟨S1200000x64, .f32⟩
  | .hbm, ⟨21, _⟩ => ⟨S_, .f32⟩
  | .hbm, ⟨22, _⟩ => ⟨S500000x64, .f32⟩
  | .hbm, ⟨23, _⟩ => ⟨S1200000x1, .i32⟩
  | .hbm, ⟨24, _⟩ => ⟨S500000x64, .f32⟩
  | .hbm, ⟨25, _⟩ => ⟨S1x500000x64, .f32⟩
  | .hbm, ⟨26, _⟩ => ⟨S500000x64, .f32⟩
  | .hbm, ⟨27, _⟩ => ⟨S500000x64, .f32⟩
  | .hbm, ⟨28, _⟩ => ⟨S500000x64, .f32⟩
  | .hbm, ⟨29, _⟩ => ⟨S1200000x1, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000x64, .f32⟩
  | .hbm, ⟨39, _⟩ => ⟨S1200000x64, .f32⟩
  | .hbm, ⟨40, _⟩ => ⟨S1200000x64, .f32⟩
  | .hbm, ⟨41, _⟩ => ⟨S_, .f32⟩
  | .hbm, ⟨42, _⟩ => ⟨S500000x64, .f32⟩
  | .hbm, ⟨43, _⟩ => ⟨S1200000x1, .i32⟩
  | .hbm, ⟨44, _⟩ => ⟨S500000x64, .f32⟩
  | .hbm, ⟨45, _⟩ => ⟨S1x500000x64, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S1200000x1, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S500000x64, .f32⟩
  | .hbm, ⟨63, _⟩ => ⟨S1200000x1, .i32⟩
  | .hbm, ⟨64, _⟩ => ⟨S500000x64, .f32⟩
  | .hbm, ⟨65, _⟩ => ⟨S1x500000x64, .f32⟩
  | .hbm, ⟨66, _⟩ => ⟨S500000x64, .f32⟩
  | .hbm, ⟨67, _⟩ => ⟨S500000x64, .f32⟩
  | .hbm, ⟨68, _⟩ => ⟨S500000x64, .f32⟩
  | .hbm, ⟨69, _⟩ => ⟨S_, .f32⟩
  | .hbm, ⟨70, _⟩ => ⟨S500000x64, .f32⟩
  | .hbm, ⟨71, _⟩ => ⟨S500000x64, .f32⟩
  | .hbm, ⟨72, _⟩ => ⟨S200000x64, .f32⟩
  | .hbm, ⟨73, _⟩ => ⟨S300000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S200000x64_S300000x64_S500000x64_d0 : Shape.Concatenates [S200000x64, S300000x64] S500000x64 0
  bcast_S_S500000x64 : S_.BroadcastsInDim S500000x64 (![] : Fin 0 → Fin S500000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S3x500000x64_S1x500000x64_0_0_0 : S3x500000x64.Slices ![0, 0, 0] S1x500000x64
  shapeCasts_S1x500000x64_S500000x64 : S1x500000x64.ShapeCasts S500000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  slices_S3x500000x64_S1x500000x64_1_0_0 : S3x500000x64.Slices ![1, 0, 0] S1x500000x64
  slices_S3x500000x64_S1x500000x64_2_0_0 : S3x500000x64.Slices ![2, 0, 0] S1x500000x64
  slices_S500000x64_S200000x64_0_0 : S500000x64.Slices ![0, 0] S200000x64
  slices_S500000x64_S300000x64_200000_0 : S500000x64.Slices ![200000, 0] S300000x64
  gather_S500000x64_S1200000x1_S1200000x64_1_0_n_n_0_1_164_wf : GatherDims.WF S500000x64 S1200000x1 S1200000x64 [1] [0] [] [0] [] 1 ![1, 64]
  scatter_S500000x64_S1200000x1_S1200000x64_1_0_0_1_wf : ScatterDims.WF S500000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S500000x64.size a
  hwx0_3 : ∀ i : grid0.Coords, EltTy.bits .f32 = 32 ∨ (Rect.block (s := S500000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S500000x64.size a
  hwx0_4 : ∀ i : grid0.Coords, EltTy.bits .f32 = 32 ∨ (Rect.block (s := S500000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S500000x64.size a
  hwx1_1 : ∀ i : grid1.Coords, EltTy.bits .f32 = 32 ∨ (Rect.block (s := S500000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S500000x64.size a
  hwx1_2 : ∀ i : grid1.Coords, EltTy.bits .f32 = 32 ∨ (Rect.block (s := S500000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S500000x64.size a
  hwx1_3 : ∀ i : grid1.Coords, EltTy.bits .f32 = 32 ∨ (Rect.block (s := S500000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S500000x64.size a
  hwx1_4 : ∀ i : grid1.Coords, EltTy.bits .f32 = 32 ∨ (Rect.block (s := S500000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S500000x64.size a
  hwx2_1 : ∀ i : grid2.Coords, EltTy.bits .f32 = 32 ∨ (Rect.block (s := S500000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S500000x64.size a
  hwx2_2 : ∀ i : grid2.Coords, EltTy.bits .f32 = 32 ∨ (Rect.block (s := S500000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S500000x64.size a
  hwx2_3 : ∀ i : grid2.Coords, EltTy.bits .f32 = 32 ∨ (Rect.block (s := S500000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S500000x64.size a
  hwx2_4 : ∀ i : grid2.Coords, EltTy.bits .f32 = 32 ∨ (Rect.block (s := S500000x64) S10000x64.size (cc2_transform_4 i) (hinb2_4 i)).WholeWords (EltTy.packing .f32)

variable [Facts₀]

def gather_S500000x64_S1200000x1_S1200000x64_1_0_n_n_0_1_164 : GatherDims S500000x64 S1200000x1 S1200000x64 where
  offsetDims := [1]
  collapsedSliceDims := [0]
  operandBatchingDims := []
  startIndicesBatchingDims := []
  startIndexMap := [0]
  indexVectorDim := 1
  sliceSizes := ![1, 64]
  wf := gather_S500000x64_S1200000x1_S1200000x64_1_0_n_n_0_1_164_wf
def scatter_S500000x64_S1200000x1_S1200000x64_1_0_0_1 : ScatterDims S500000x64 S1200000x1 S1200000x64 where
  updateWindowDims := [1]
  insertedWindowDims := [0]
  scatterDimsToOperandDims := [0]
  indexVectorDim := 1
  wf := scatter_S500000x64_S1200000x1_S1200000x64_1_0_0_1_wf

abbrev win0_0 : Pipeline.Window sig grid0 :=
  Pipeline.Window.ofSpec (Memref.whole main_v14) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33_1) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_0) S10000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49_1) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x64 : Shape := ⟨2, ![200000, 64]⟩
abbrev S300000x64 : Shape := ⟨2, ![300000, 64]⟩
abbrev S1200000 : Shape := ⟨1, ![1200000]⟩
abbrev S3x500000x64 : Shape := ⟨3, ![3, 500000, 64]⟩
abbrev S500000x64 : Shape := ⟨2, ![500000, 64]⟩
abbrev S_ : Shape := ⟨0, ![]⟩
abbrev S1200000x1 : Shape := ⟨2, ![1200000, 1]⟩
abbrev S1200000x64 : Shape := ⟨2, ![1200000, 64]⟩
abbrev S1x500000x64 : Shape := ⟨3, ![1, 500000, 64]⟩
abbrev S500000 : Shape := ⟨1, ![500000]⟩
abbrev S500000x1 : Shape := ⟨2, ![500000, 1]⟩

abbrev nBuf : Space → Nat
  | .hbm => 119
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S300000x64, .f32⟩
  | .hbm, ⟨2, _⟩ => ⟨S1200000, .f32⟩
  | .hbm, ⟨3, _⟩ => ⟨S3x500000x64, .f32⟩
  | .hbm, ⟨4, _⟩ => ⟨S1200000, .i32⟩
  | .hbm, ⟨5, _⟩ => ⟨S1200000, .i32⟩
  | .hbm, ⟨6, _⟩ => ⟨S500000x64, .f32⟩
  | .hbm, ⟨7, _⟩ => ⟨S_, .f32⟩
  | .hbm, ⟨8, _⟩ => ⟨S500000x64, .f32⟩
  | .hbm, ⟨9, _⟩ => ⟨S1200000x1, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S1200000x64, .f32⟩
  | .hbm, ⟨20, _⟩ => ⟨S1200000x64, .f32⟩
  | .hbm, ⟨21, _⟩ => ⟨S_, .f32⟩
  | .hbm, ⟨22, _⟩ => ⟨S500000x64, .f32⟩
  | .hbm, ⟨23, _⟩ => ⟨S1200000x1, .i32⟩
  | .hbm, ⟨24, _⟩ => ⟨S500000x64, .f32⟩
  | .hbm, ⟨25, _⟩ => ⟨S1x500000x64, .f32⟩
  | .hbm, ⟨26, _⟩ => ⟨S500000x64, .f32⟩
  | .hbm, ⟨27, _⟩ => ⟨S500000x64, .f32⟩
  | .hbm, ⟨28, _⟩ => ⟨S_, .f32⟩
  | .hbm, ⟨29, _⟩ => ⟨S500000, .f32⟩
  | .hbm, ⟨30, _⟩ => ⟨S500000x1, .f32⟩
  | .hbm, ⟨31, _⟩ => ⟨S500000x1, .f32⟩
  | .hbm, ⟨32, _⟩ => ⟨S_, .f32⟩
  | .hbm, ⟨33, _⟩ => ⟨S500000x1, .f32⟩
  | .hbm, ⟨34, _⟩ => ⟨S500000x1, .f32⟩
  | .hbm, ⟨35, _⟩ => ⟨S500000x64, .f32⟩
  | .hbm, ⟨36, _⟩ => ⟨S500000x64, .f32⟩
  | .hbm, ⟨37, _⟩ => ⟨S500000x64, .f32⟩
  | .hbm, ⟨38, _⟩ => ⟨S500000x64, .f32⟩
  | .hbm, ⟨39, _⟩ => ⟨S_, .f32⟩
  | .hbm, ⟨40, _⟩ => ⟨S500000x64, .f32⟩
  | .hbm, ⟨41, _⟩ => ⟨S500000x64, .f32⟩
  | .hbm, ⟨42, _⟩ => ⟨S500000x64, .f32⟩
  | .hbm, ⟨43, _⟩ => ⟨S500000x64, .f32⟩
  | .hbm, ⟨44, _⟩ => ⟨S1200000x1, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1200000x64, .f32⟩
  | .hbm, ⟨55, _⟩ => ⟨S1200000x64, .f32⟩
  | .hbm, ⟨56, _⟩ => ⟨S_, .f32⟩
  | .hbm, ⟨57, _⟩ => ⟨S500000x64, .f32⟩
  | .hbm, ⟨58, _⟩ => ⟨S1200000x1, .i32⟩
  | .hbm, ⟨59, _⟩ => ⟨S500000x64, .f32⟩
  | .hbm, ⟨60, _⟩ => ⟨S1x500000x64, .f32⟩
  | .hbm, ⟨61, _⟩ => ⟨S500000x64, .f32⟩
  | .hbm, ⟨62, _⟩ => ⟨S500000x64, .f32⟩
  | .hbm, ⟨63, _⟩ => ⟨S_, .f32⟩
  | .hbm, ⟨64, _⟩ => ⟨S500000, .f32⟩
  | .hbm, ⟨65, _⟩ => ⟨S500000x1, .f32⟩
  | .hbm, ⟨66, _⟩ => ⟨S500000x1, .f32⟩
  | .hbm, ⟨67, _⟩ => ⟨S_, .f32⟩
  | .hbm, ⟨68, _⟩ => ⟨S500000x1, .f32⟩
  | .hbm, ⟨69, _⟩ => ⟨S500000x1, .f32⟩
  | .hbm, ⟨70, _⟩ => ⟨S500000x64, .f32⟩
  | .hbm, ⟨71, _⟩ => ⟨S500000x64, .f32⟩
  | .hbm, ⟨72, _⟩ => ⟨S500000x64, .f32⟩
  | .hbm, ⟨73, _⟩ => ⟨S500000x64, .f32⟩
  | .hbm, ⟨74, _⟩ => ⟨S_, .f32⟩
  | .hbm, ⟨75, _⟩ => ⟨S500000x64, .f32⟩
  | .hbm, ⟨76, _⟩ => ⟨S500000x64, .f32⟩
  | .hbm, ⟨77, _⟩ => ⟨S500000x64, .f32⟩
  | .hbm, ⟨78, _⟩ => ⟨S500000x64, .f32⟩
  | .hbm, ⟨79, _⟩ => ⟨S1200000x1, .f32⟩
  | .hbm, ⟨80, _⟩ => ⟨S_, .i32⟩
  | .hbm, ⟨81, _⟩ => ⟨S1200000, .i32⟩
  | .hbm, ⟨82, _⟩ => ⟨S1200000, .i1⟩
  | .hbm, ⟨83, _⟩ => ⟨S_, .i32⟩
  | .hbm, ⟨84, _⟩ => ⟨S1200000, .i32⟩
  | .hbm, ⟨85, _⟩ => ⟨S1200000, .i32⟩
  | .hbm, ⟨86, _⟩ => ⟨S1200000, .i32⟩
  | .hbm, ⟨87, _⟩ => ⟨S1200000x1, .i32⟩
  | .hbm, ⟨88, _⟩ => ⟨S1200000x64, .f32⟩
  | .hbm, ⟨89, _⟩ => ⟨S1200000x64, .f32⟩
  | .hbm, ⟨90, _⟩ => ⟨S1200000x64, .f32⟩
  | .hbm, ⟨91, _⟩ => ⟨S_, .f32⟩
  | .hbm, ⟨92, _⟩ => ⟨S500000x64, .f32⟩
  | .hbm, ⟨93, _⟩ => ⟨S1200000x1, .i32⟩
  | .hbm, ⟨94, _⟩ => ⟨S500000x64, .f32⟩
  | .hbm, ⟨95, _⟩ => ⟨S1x500000x64, .f32⟩
  | .hbm, ⟨96, _⟩ => ⟨S500000x64, .f32⟩
  | .hbm, ⟨97, _⟩ => ⟨S500000x64, .f32⟩
  | .hbm, ⟨98, _⟩ => ⟨S_, .f32⟩
  | .hbm, ⟨99, _⟩ => ⟨S500000, .f32⟩
  | .hbm, ⟨100, _⟩ => ⟨S500000x1, .f32⟩
  | .hbm, ⟨101, _⟩ => ⟨S500000x1, .f32⟩
  | .hbm, ⟨102, _⟩ => ⟨S_, .f32⟩
  | .hbm, ⟨103, _⟩ => ⟨S500000x1, .f32⟩
  | .hbm, ⟨104, _⟩ => ⟨S500000x1, .f32⟩
  | .hbm, ⟨105, _⟩ => ⟨S500000x64, .f32⟩
  | .hbm, ⟨106, _⟩ => ⟨S500000x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S500000x64, .f32⟩
  | .hbm, ⟨111, _⟩ => ⟨S500000x64, .f32⟩
  | .hbm, ⟨112, _⟩ => ⟨S500000x64, .f32⟩
  | .hbm, ⟨113, _⟩ => ⟨S500000x64, .f32⟩
  | .hbm, ⟨114, _⟩ => ⟨S_, .f32⟩
  | .hbm, ⟨115, _⟩ => ⟨S500000x64, .f32⟩
  | .hbm, ⟨116, _⟩ => ⟨S500000x64, .f32⟩
  | .hbm, ⟨117, _⟩ => ⟨S200000x64, .f32⟩
  | .hbm, ⟨118, _⟩ => ⟨S300000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_cst : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  concatenates_S200000x64_S300000x64_S500000x64_d0 : Shape.Concatenates [S200000x64, S300000x64] S500000x64 0
  bcast_S_S500000x64 : S_.BroadcastsInDim S500000x64 (![] : Fin 0 → Fin S500000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S3x500000x64_S1x500000x64_0_0_0 : S3x500000x64.Slices ![0, 0, 0] S1x500000x64
  shapeCasts_S1x500000x64_S500000x64 : S1x500000x64.ShapeCasts S500000x64
  reducesTo_S500000x64_S500000_d1 : S500000x64.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  slices_S3x500000x64_S1x500000x64_1_0_0 : S3x500000x64.Slices ![1, 0, 0] S1x500000x64
  slices_S3x500000x64_S1x500000x64_2_0_0 : S3x500000x64.Slices ![2, 0, 0] S1x500000x64
  slices_S500000x64_S200000x64_0_0 : S500000x64.Slices ![0, 0] S200000x64
  slices_S500000x64_S300000x64_200000_0 : S500000x64.Slices ![200000, 0] S300000x64
  gather_S500000x64_S1200000x1_S1200000x64_1_0_n_n_0_1_164_wf : GatherDims.WF S500000x64 S1200000x1 S1200000x64 [1] [0] [] [0] [] 1 ![1, 64]
  scatter_S500000x64_S1200000x1_S1200000x64_1_0_0_1_wf : ScatterDims.WF S500000x64 S1200000x1 S1200000x64 [1] [0] [0] 1

variable [Facts₀]

def gather_S500000x64_S1200000x1_S1200000x64_1_0_n_n_0_1_164 : GatherDims S500000x64 S1200000x1 S1200000x64 where
  offsetDims := [1]
  collapsedSliceDims := [0]
  operandBatchingDims := []
  startIndicesBatchingDims := []
  startIndexMap := [0]
  indexVectorDim := 1
  sliceSizes := ![1, 64]
  wf := gather_S500000x64_S1200000x1_S1200000x64_1_0_n_n_0_1_164_wf
def scatter_S500000x64_S1200000x1_S1200000x64_1_0_0_1 : ScatterDims S500000x64 S1200000x1 S1200000x64 where
  updateWindowDims := [1]
  insertedWindowDims := [0]
  scatterDimsToOperandDims := [0]
  indexVectorDim := 1
  wf := scatter_S500000x64_S1200000x1_S1200000x64_1_0_0_1_wf

class Facts : Prop extends Facts₀ where

variable [Facts]
-- ==== Proof.Spec.lean ====
/-
  The specification both programs are read against.

  A layer of the encoder is  ego' = sp + sign(sp) · (nk / max(‖nk‖₂, ε)) · δ  with  sp = A · ego  the sparse product
  (gather the rows `cols` of ego, scale them by `vals`, add them into the rows `rows`), nk the layer's noise,
  ‖nk‖₂ the Euclidean norm of each row, ε = f32(1e-12) and δ = f32(0.1).  Three layers run from
  ego₀ = [user_emb; item_emb]; the result is (ego₁ + ego₂ + ego₃) / 3, cut back into its two blocks of rows.

  The sparse product, the slicing of the noise and the final mean are the same host operations in both programs, so they
  are carried here as whole-array functions and never opened.  Only the perturbation is read entry by entry:
  `perturb_apply` says that its entry (r, q) is  sp(r,q) + sign(sp(r,q)) · (nk(r,q) / max(√(Σₖ nk(r,k)²), ε)) · δ.
-/
import proofs.«158097_j566935683766_1_alg».proof.ReferenceIdeal
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx Cert.ReferenceIdeal
open Cert.ReferenceIdeal.Facts₀ Cert.ReferenceIdeal.Facts

variable {F : FTy → Type} [FloatOps F] [Cert.ReferenceIdeal.Facts]

/-! ## The whole-array functions -/

/-- The all-zero table the accumulator starts from. -/
def zeros : FVec F S500000x64 .f32 :=
  broadcastInDim S500000x64 ![] bcast_S_S500000x64 (constant S_ .f32 0x00000000#32)

/-- ego₀: the user rows above the item rows. -/
def joined (a0 : FVec F S200000x64 .f32) (a1 : FVec F S300000x64 .f32) :
    FVec F S500000x64 .f32 :=
  concatenate S500000x64 0 [⟨S200000x64, a0⟩, ⟨S300000x64, a1⟩] concatenates_S200000x64_S300000x64_S500000x64_d0

/-- The sparse product A · ego: row cols[e] of ego (a negative index counted from the end), times vals[e], added into
    row rows[e]. -/
def spmm (vals : FVec F S1200000 .f32) (rows cols : IVec S1200000 32)
    (ego : FVec F S500000x64 .f32) : FVec F S500000x64 .f32 :=
  Host.scatterAdd scatter_S500000x64_S1200000x1_S1200000x64_1_0_0_1
    (broadcastInDim S500000x64 ![] bcast_S_S500000x64 (constant S_ .f32 0x00000000#32))
    (broadcastInDim S1200000x1 ![0] bcast_S1200000_S1200000x1_0 rows)
    (mulf (broadcastInDim S1200000x64 ![0, 1] bcast_S1200000x1_S1200000x64_0_1 (broadcastInDim S1200000x1 ![0] bcast_S1200000_S1200000x1_0 vals))
      (Host.gather gather_S500000x64_S1200000x1_S1200000x64_1_0_n_n_0_1_164 ego
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 500000#32))) cols))))

/-- The noise of layer 0, 1, 2: one [500000, 64] slab of the [3, 500000, 64] array. -/
def noise0 (n : FVec F S3x500000x64 .f32) : FVec F S500000x64 .f32 :=
  shapeCast S500000x64 (extractStridedSlice S1x500000x64 ![0, 0, 0] n slices_S3x500000x64_S1x500000x64_0_0_0) shapeCasts_S1x500000x64_S500000x64
def noise1 (n : FVec F S3x500000x64 .f32) : FVec F S500000x64 .f32 :=
  shapeCast S500000x64 (extractStridedSlice S1x500000x64 ![1, 0, 0] n slices_S3x500000x64_S1x500000x64_1_0_0) shapeCasts_S1x500000x64_S500000x64
def noise2 (n : FVec F S3x500000x64 .f32) : FVec F S500000x64 .f32 :=
  shapeCast S500000x64 (extractStridedSlice S1x500000x64 ![2, 0, 0] n slices_S3x500000x64_S1x500000x64_2_0_0) shapeCasts_S1x500000x64_S500000x64

/-- The perturbation sp + sign(sp) · (nk / max(‖nk‖₂, ε)) · δ, in the host's operations. -/
def perturb (sp nk : FVec F S500000x64 .f32) : FVec F S500000x64 .f32 :=
  addf sp (mulf (mulf (Host.sign sp)
      (Host.divf nk (broadcastInDim S500000x64 ![0, 1] bcast_S500000x1_S500000x64_0_1
        (maximumf (Host.sqrt (broadcastInDim S500000x1 ![0] bcast_S500000_S500000x1_0
            (Host.reduceAdd (mulf nk nk) (constant S_ .f32 0x00000000#32) reducesTo_S500000x64_S500000_d1 h_S_)))
          (broadcastInDim S500000x1 ![] bcast_S_S500000x1 (constant S_ .f32 0x2B8CBCCC#32))))))
    (broadcastInDim S500000x64 ![] bcast_S_S500000x64 (constant S_ .f32 0x3DCCCCCD#32)))

/-- A third of a table, and its user rows and item rows. -/
def third (x : FVec F S500000x64 .f32) : FVec F S500000x64 .f32 :=
  Host.divf x (broadcastInDim S500000x64 ![] bcast_S_S500000x64 (constant S_ .f32 0x40400000#32))
def userRows (x : FVec F S500000x64 .f32) : FVec F S200000x64 .f32 :=
  extractStridedSlice S200000x64 ![0, 0] x slices_S500000x64_S200000x64_0_0
def itemRows (x : FVec F S500000x64 .f32) : FVec F S300000x64 .f32 :=
  extractStridedSlice S300000x64 ![200000, 0] x slices_S500000x64_S300000x64_200000_0

section
variable (a0 : FVec F S200000x64 .f32) (a1 : FVec F S300000x64 .f32)
  (vals : FVec F S1200000 .f32) (n : FVec F S3x500000x64 .f32)
  (rows cols : IVec S1200000 32)

/-- ego₁, ego₂, ego₃. -/
def layer1 : FVec F S500000x64 .f32 := perturb (spmm vals rows cols (joined a0 a1)) (noise0 n)
def layer2 : FVec F S500000x64 .f32 := perturb (spmm vals rows cols (layer1 a0 a1 vals n rows cols)) (noise1 n)
def layer3 : FVec F S500000x64 .f32 := perturb (spmm vals rows cols (layer2 a0 a1 vals n rows cols)) (noise2 n)

/-- The running sums 0 + ego₁, (0 + ego₁) + ego₂, ((0 + ego₁) + ego₂) + ego₃. -/
def acc1 : FVec F S500000x64 .f32 := addf zeros (layer1 a0 a1 vals n rows cols)
def acc2 : FVec F S500000x64 .f32 := addf (acc1 a0 a1 vals n rows cols) (layer2 a0 a1 vals n rows cols)
def acc3 : FVec F S500000x64 .f32 := addf (acc2 a0 a1 vals n rows cols) (layer3 a0 a1 vals n rows cols)

/-- The mean of the three layers. -/
def mean : FVec F S500000x64 .f32 := third (acc3 a0 a1 vals n rows cols)

/-- Its user rows and its item rows: the two results. -/
def outUsers : FVec F S200000x64 .f32 := userRows (mean a0 a1 vals n rows cols)
def outItems : FVec F S300000x64 .f32 := itemRows (mean a0 a1 vals n rows cols)
end

/-! ## The perturbation at an entry -/

/-- One entry of the perturbation from the entry `s` of sp, the entry `x` of the noise and the sum of squares `ss` of the
    noise's row. -/
def pert (s x ss : EReal) : EReal :=
  s + Ideal.sign s * Ideal.div x (max (Ideal.sqrt ss) (Ideal.ofBits .f32 0x2B8CBCCC#32)) * Ideal.ofBits .f32 0x3DCCCCCD#32

/-- The host's row sum of squares at row r: the sum over the 64 columns (the initial value is zero). -/
theorem rowSumSq_apply (nk : FVec Ideal S500000x64 .f32) (r : Fin 500000) :
    Host.reduceAdd (mulf nk nk) (constant (F := Ideal) S_ .f32 0x00000000#32) reducesTo_S500000x64_S500000_d1 h_S_ (ix1 r)
      = ∑ k : Fin 64, nk (ix2 r k) * nk (ix2 r k) := by
  generalize hy : mulf nk nk = y
  simp only [Host.reduceAdd, Ideal.hostReduceAdd_def]
  rw [Ideal.hostReduceAdd_single reducesTo_S500000x64_S500000_d1 (by decide)]
  have h0 : constant (F := Ideal) S_ .f32 0x00000000#32 (Shape.Idx.first h_S_) = 0 := Ideal.ofBits_zero_f32
  rw [h0, zero_add]
  refine Finset.sum_congr rfl fun k _ => ?_
  subst hy
  exact congrArg (fun i => nk i * nk i) (funext fun a => Fin.ext (by match a with | ⟨0, _⟩ => rfl | ⟨1, _⟩ => rfl))

/-- A vector made a column: its entry (r, 0) is the vector's entry r. -/
theorem colOfVec_apply {α : Type} (y : S500000.Idx → α) (r : Fin 500000) (u : Fin 1) :
    broadcastInDim S500000x1 ![0] bcast_S500000_S500000x1_0 y (ix2 r u) = y (ix1 r) :=
  broadcastInDim_apply _ bcast_S500000_S500000x1_0 y (ix2 r u) (ix1 r) (fun a => match a with
    | ⟨0, _⟩ => by show r.val = if (500000 : Nat) = 1 then 0 else r.val; rw [if_neg (by decide)])

/-- A column repeated along the rows: its entry (r, q) is the column's entry (r, 0). -/
theorem rowsOfCol_apply {α : Type} (y : S500000x1.Idx → α) (r : Fin 500000) (q : Fin 64) :
    broadcastInDim S500000x64 ![0, 1] bcast_S500000x1_S500000x64_0_1 y (ix2 r q) = y (ix2 r (0 : Fin 1)) :=
  broadcastInDim_apply _ bcast_S500000x1_S500000x64_0_1 y (ix2 r q) (ix2 r (0 : Fin 1)) (fun a => match a with
    | ⟨0, _⟩ => by show r.val = if (500000 : Nat) = 1 then 0 else r.val; rw [if_neg (by decide)]
    | ⟨1, _⟩ => by show 0 = if (1 : Nat) = 1 then 0 else q.val; rw [if_pos rfl])

/-- The clamped norm of row r: max(√(Σₖ nk(r,k)²), ε). -/
theorem clampedNorm_apply (nk : FVec Ideal S500000x64 .f32) (r : Fin 500000) (u : Fin 1) :
    maximumf (Host.sqrt (broadcastInDim S500000x1 ![0] bcast_S500000_S500000x1_0
        (Host.reduceAdd (mulf nk nk) (constant (F := Ideal) S_ .f32 0x00000000#32) reducesTo_S500000x64_S500000_d1 h_S_)))
      (broadcastInDim S500000x1 ![] bcast_S_S500000x1 (constant (F := Ideal) S_ .f32 0x2B8CBCCC#32)) (ix2 r u)
      = max (Ideal.sqrt (∑ k : Fin 64, nk (ix2 r k) * nk (ix2 r k))) (Ideal.ofBits .f32 0x2B8CBCCC#32) := by
  have hs := rowSumSq_apply nk r
  generalize Host.reduceAdd (mulf nk nk) (constant (F := Ideal) S_ .f32 0x00000000#32) reducesTo_S500000x64_S500000_d1 h_S_ = Y at hs ⊢
  show max (Ideal.sqrt (broadcastInDim S500000x1 ![0] bcast_S500000_S500000x1_0 Y (ix2 r u))) (Ideal.ofBits .f32 0x2B8CBCCC#32) = _
  rw [colOfVec_apply, hs]

/-- THE PERTURBATION AT THE ENTRY (r, q). -/
theorem perturb_apply (sp nk : FVec Ideal S500000x64 .f32) (r : Fin 500000) (q : Fin 64) :
    perturb (F := Ideal) sp nk (ix2 r q) = pert (sp (ix2 r q)) (nk (ix2 r q)) (∑ k : Fin 64, nk (ix2 r k) * nk (ix2 r k)) := by
  have hc := clampedNorm_apply nk r (0 : Fin 1)
  unfold perturb pert
  generalize maximumf (Host.sqrt (broadcastInDim S500000x1 ![0] bcast_S500000_S500000x1_0
        (Host.reduceAdd (mulf nk nk) (constant (F := Ideal) S_ .f32 0x00000000#32) reducesTo_S500000x64_S500000_d1 h_S_)))
      (broadcastInDim S500000x1 ![] bcast_S_S500000x1 (constant (F := Ideal) S_ .f32 0x2B8CBCCC#32)) = C at hc ⊢
  show sp (ix2 r q) + Ideal.sign (sp (ix2 r q)) * Ideal.div (nk (ix2 r q)) (broadcastInDim S500000x64 ![0, 1] bcast_S500000x1_S500000x64_0_1 C (ix2 r q))
      * Ideal.ofBits .f32 0x3DCCCCCD#32 = _
  rw [rowsOfCol_apply, hc]

end Cert.Spec

end
-- ==== Proof.KStretch.lean ====
/-
  The host stretches of @main between the pallas_calls, read as values.

  The buffer contents at the boundaries of @main's segments are a fold through its host stretches and its calls.  No
  stretch and no call writes an argument, so at every boundary the arguments are as launched.  The stretch before a call
  computes that call's sparse product from the previous layer's table (the joined embeddings before the first call) and
  slices that layer's noise; the running sum is handed from call to call untouched; the last stretch takes a third of
  the final running sum and cuts its user rows and item rows.  Each is the specification's whole-array function, stated
  at any float instance: the two sides are the same operations, compared by unfolding names only.
-/
import proofs.«158097_j566935683766_1_alg».proof.Proof.PKernelIdealFrame
import proofs.«158097_j566935683766_1_alg».proof.Proof.Spec
import proofs.«158097_j566935683766_1_alg».proof.Proof.Gen.ReferenceIdeal
import Idealize.ShloMosaic.Lib.StableHlo.Run

set_option maxRecDepth 16384

noncomputable section

namespace Cert.KernelIdeal.Stretch

open Cert.KernelIdeal Cert.KernelIdeal.Gen Cert.KernelIdeal.GenP Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- No operation of the stretch writes the buffer: its contents pass through. -/
local macro "untouched" : tactic => `(tactic| exact StableHlo.after_of_forall_not_mem _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments at the boundaries -/

theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by untouched).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (show StableHlo.after hostOps1 (W2 m ρ c) (Proc.devRef .tc main_arg2) = W2 m ρ c (Proc.devRef .tc main_arg2) by untouched).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by untouched).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by untouched).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by untouched).trans rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by untouched).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by untouched).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by untouched).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## Before the first call -/

set_option maxHeartbeats 2000000 in
theorem W1_sp (c : Dev nD) : W1 m ρ c (Proc.devRef .tc main_v14)
    = Cert.Spec.spmm (F := F) (m ((c : Thread nD τ).loc main_arg2)) (m ((c : Thread nD τ).loc main_arg4)) (m ((c : Thread nD τ).loc main_arg5))
        (Cert.Spec.joined (F := F) (m ((c : Thread nD τ).loc main_arg0)) (m ((c : Thread nD τ).loc main_arg1))) := by
  show StableHlo.after hostOps0 (W0 m ρ c) (Proc.devRef .tc main_v14) = _
  unfold Cert.Spec.spmm Cert.Spec.joined
  after_results_simp <;> rfl

theorem W1_nk (c : Dev nD) : W1 m ρ c (Proc.devRef .tc main_v16) = Cert.Spec.noise0 (F := F) (m ((c : Thread nD τ).loc main_arg3)) := by
  show StableHlo.after hostOps0 (W0 m ρ c) (Proc.devRef .tc main_v16) = _
  after_results
  rfl

theorem W1_acc (c : Dev nD) : W1 m ρ c (Proc.devRef .tc main_v1) = Cert.Spec.zeros (F := F) := by
  show StableHlo.after hostOps0 (W0 m ρ c) (Proc.devRef .tc main_v1) = _
  after_results
  rfl

/-! ## Between the first and the second -/

set_option maxHeartbeats 2000000 in
theorem W3_sp (c : Dev nD) : W3 m ρ c (Proc.devRef .tc main_v30)
    = Cert.Spec.spmm (F := F) (m ((c : Thread nD τ).loc main_arg2)) (m ((c : Thread nD τ).loc main_arg4)) (m ((c : Thread nD τ).loc main_arg5))
        (W2 m ρ c (Proc.devRef .tc main_v17_0)) := by
  show StableHlo.after hostOps1 (W2 m ρ c) (Proc.devRef .tc main_v30) = _
  unfold Cert.Spec.spmm
  rw [← W2_arg2 m ρ c, ← W2_arg4 m ρ c, ← W2_arg5 m ρ c]
  after_results_simp <;> rfl

theorem W3_nk (c : Dev nD) : W3 m ρ c (Proc.devRef .tc main_v32) = Cert.Spec.noise1 (F := F) (m ((c : Thread nD τ).loc main_arg3)) := by
  show StableHlo.after hostOps1 (W2 m ρ c) (Proc.devRef .tc main_v32) = _
  after_results
  rw [W2_arg3] <;> rfl

theorem W3_acc (c : Dev nD) : W3 m ρ c (Proc.devRef .tc main_v17_1) = W2 m ρ c (Proc.devRef .tc main_v17_1) := by
  show StableHlo.after hostOps1 (W2 m ρ c) (Proc.devRef .tc main_v17_1) = _
  untouched

/-! ## Between the second and the third -/

set_option maxHeartbeats 2000000 in
theorem W5_sp (c : Dev nD) : W5 m ρ c (Proc.devRef .tc main_v46)
    = Cert.Spec.spmm (F := F) (m ((c : Thread nD τ).loc main_arg2)) (m ((c : Thread nD τ).loc main_arg4)) (m ((c : Thread nD τ).loc main_arg5))
        (W4 m ρ c (Proc.devRef .tc main_v33_0)) := by
  show StableHlo.after hostOps2 (W4 m ρ c) (Proc.devRef .tc main_v46) = _
  unfold Cert.Spec.spmm
  rw [← W4_arg2 m ρ c, ← W4_arg4 m ρ c, ← W4_arg5 m ρ c]
  after_results_simp <;> rfl

theorem W5_nk (c : Dev nD) : W5 m ρ c (Proc.devRef .tc main_v48) = Cert.Spec.noise2 (F := F) (m ((c : Thread nD τ).loc main_arg3)) := by
  show StableHlo.after hostOps2 (W4 m ρ c) (Proc.devRef .tc main_v48) = _
  after_results
  rw [W4_arg3] <;> rfl

theorem W5_acc (c : Dev nD) : W5 m ρ c (Proc.devRef .tc main_v33_1) = W4 m ρ c (Proc.devRef .tc main_v33_1) := by
  show StableHlo.after hostOps2 (W4 m ρ c) (Proc.devRef .tc main_v33_1) = _
  untouched

/-! ## After the third -/

theorem W7_users (c : Dev nD) : W7 m ρ c (Proc.devRef .tc main_v52)
    = Cert.Spec.userRows (F := F) (Cert.Spec.third (F := F) (W6 m ρ c (Proc.devRef .tc main_v49_1))) := by
  show StableHlo.after hostOps3 (W6 m ρ c) (Proc.devRef .tc main_v52) = _
  after_results
  rfl

theorem W7_items (c : Dev nD) : W7 m ρ c (Proc.devRef .tc main_v53)
    = Cert.Spec.itemRows (F := F) (Cert.Spec.third (F := F) (W6 m ρ c (Proc.devRef .tc main_v49_1))) := by
  show StableHlo.after hostOps3 (W6 m ρ c) (Proc.devRef .tc main_v53) = _
  after_results
  rfl

end Cert.KernelIdeal.Stretch

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KPayload.lean ====
/-
  The kernel body's two stored values, read at an entry.

  The body loads the block of sp (x0), of the layer's noise (x1) and of the running sum (x2), all [10000, 64], and stores
    ego' = x0 + sgn(x0) · (x1 / max(√(row sum of x1²), ε)) · δ        and        acc' = x2 + ego',
  where sgn is spelt as a select on |x0| > 0 of ±1 by x0 < 0 — the sign of x0 at the extended reals — and the row sum runs
  over the block's 64 columns.  So the entry (p, q) of the first is `Spec.pert` of x0(p,q), x1(p,q) and Σₖ x1(p,k)².
  The three pallas_calls print the same body three times; the second and third are the first by unfolding.
-/
import proofs.«158097_j566935683766_1_alg».proof.Proof.Gen.KernelIdeal.Skeleton
import proofs.«158097_j566935683766_1_alg».proof.Proof.LibPlainDot
import proofs.«158097_j566935683766_1_alg».proof.Proof.Spec

noncomputable section

namespace Cert.KernelIdeal.Pay

open Idealize.ShloMosaic Idealize.ShloMosaic.ValueIdx Cert.KernelIdeal Cert.KernelIdeal.Gen

/-- The clamped norm of block row p, as the body computes it: the lane sum of squares, made a column, rooted, clamped at ε. -/
theorem clampedNorm_apply (y : FVec Ideal S10000x64 .f32) (p : Fin 10000) (u : Fin 1) :
    maximumf (sqrt (shapeCast S10000x1 (multiReduction .add [1] S10000 (mulf y y) 0x00000000#32 reduces_S10000x64_S10000 (.inl rfl) rfl)
        shapeCasts_S10000_S10000x1)) (broadcast S10000x1 (Scalar.ofBits (F := Ideal) .f32 0x2B8CBCCC#32)) (ix2 p u)
      = max (Ideal.sqrt (∑ k : Fin 64, y (ix2 p k) * y (ix2 p k))) (Ideal.ofBits .f32 0x2B8CBCCC#32) := by
  have hs : multiReduction .add [1] S10000 (mulf y y) 0x00000000#32 reduces_S10000x64_S10000 (.inl rfl) rfl (ix1 p)
      = ∑ k : Fin 64, y (ix2 p k) * y (ix2 p k) := PlainDot.rowSum_apply (mulf y y) _ _ _ rfl p
  generalize multiReduction .add [1] S10000 (mulf y y) 0x00000000#32 reduces_S10000x64_S10000 (.inl rfl) rfl = Y at hs ⊢
  show max (Ideal.sqrt (shapeCast S10000x1 Y shapeCasts_S10000_S10000x1 (ix2 p u))) (Ideal.ofBits .f32 0x2B8CBCCC#32) = _
  rw [PlainDot.shapeCast_a_a1_apply, hs]

/-- THE FIRST STORED VALUE AT THE ENTRY (p, q). -/
theorem pay1_apply (x0 x1 : FVec Ideal S10000x64 .f32) (p : Fin 10000) (q : Fin 64) :
    k0_pay1 (F := Ideal) x0 x1 (ix2 p q) = Cert.Spec.pert (x0 (ix2 p q)) (x1 (ix2 p q)) (∑ k : Fin 64, x1 (ix2 p k) * x1 (ix2 p k)) := by
  have hc := clampedNorm_apply x1 p (0 : Fin 1)
  unfold k0_pay1 Cert.Spec.pert
  simp only [shapeCast_self]
  generalize maximumf (sqrt (shapeCast S10000x1 (multiReduction .add [1] S10000 (mulf x1 x1) 0x00000000#32 reduces_S10000x64_S10000 (.inl rfl) rfl)
        shapeCasts_S10000_S10000x1)) (broadcast S10000x1 (Scalar.ofBits (F := Ideal) .f32 0x2B8CBCCC#32)) = C at hc ⊢
  show x0 (ix2 p q) + Scalar.select (FloatOps.cmpf .ogt (FloatOps.absf (x0 (ix2 p q))) (Scalar.ofBits .f32 0x00000000#32))
        (Scalar.select (FloatOps.cmpf .olt (x0 (ix2 p q)) (Scalar.ofBits .f32 0x00000000#32)) (Scalar.ofBits .f32 0xBF800000#32)
          (Scalar.ofBits .f32 0x3F800000#32)) (x0 (ix2 p q))
      * Ideal.div (x1 (ix2 p q)) (broadcastTo S10000x64 C broadcasts_S10000x1_S10000x64 (ix2 p q)) * Ideal.ofBits .f32 0x3DCCCCCD#32 = _
  rw [Ideal.jnp_sign_eq_sign_f32, PlainDot.broadcastTo_a1_ab_apply, hc]

/-- THE SECOND STORED VALUE: the running sum's block plus the first. -/
theorem pay2_eq (x0 x1 x2 : FVec Ideal S10000x64 .f32) : k0_pay2 (F := Ideal) x0 x1 x2 = addf x2 (k0_pay1 (F := Ideal) x0 x1) := by
  unfold k0_pay2
  simp only [shapeCast_self]

/-- The three pallas_calls store the same two values: the first by name, the second and the third by unfolding. -/
theorem k0_pay1_eq (x0 x1 : FVec Ideal S10000x64 .f32) : k0_pay1 (F := Ideal) x0 x1 = k0_pay1 (F := Ideal) x0 x1 := rfl
theorem k0_pay2_eq (x0 x1 x2 : FVec Ideal S10000x64 .f32) : k0_pay2 (F := Ideal) x0 x1 x2 = k0_pay2 (F := Ideal) x0 x1 x2 := rfl
theorem k1_pay1_eq (x0 x1 : FVec Ideal S10000x64 .f32) : k1_pay1 (F := Ideal) x0 x1 = k0_pay1 (F := Ideal) x0 x1 := rfl
theorem k2_pay1_eq (x0 x1 : FVec Ideal S10000x64 .f32) : k2_pay1 (F := Ideal) x0 x1 = k0_pay1 (F := Ideal) x0 x1 := rfl
theorem k1_pay2_eq (x0 x1 x2 : FVec Ideal S10000x64 .f32) : k1_pay2 (F := Ideal) x0 x1 x2 = k0_pay2 (F := Ideal) x0 x1 x2 := rfl
theorem k2_pay2_eq (x0 x1 x2 : FVec Ideal S10000x64 .f32) : k2_pay2 (F := Ideal) x0 x1 x2 = k0_pay2 (F := Ideal) x0 x1 x2 := rfl

end Cert.KernelIdeal.Pay

end
-- ==== Proof.KRegion0.lean ====
/-
  The first pallas_call, from blocks to arrays.

  Its grid has 50 points; at point t every window's block is rows t·10000 … t·10000 + 9999 of its array, all 64 columns.
  The body's first stored value at the block's entry (p, q) depends on the block's entry (p, q) of sp, on the noise's, and on the
  noise's whole block row p — which is the array's row t·10000 + p. So what point t writes back is block t of the
  perturbation of the whole arrays (`Spec.perturb_apply` and `Pay.pay1_apply` meet at `Spec.pert`), the 50 blocks cover
  the array, and the call's two output arrays end at  perturb sp nk  and  acc + perturb sp nk  of the arrays it was entered with.
-/
import proofs.«158097_j566935683766_1_alg».proof.Proof.PKernelIdealFrame
import proofs.«158097_j566935683766_1_alg».proof.Proof.KPayload
import proofs.«158097_j566935683766_1_alg».proof.Proof.Gen.ReferenceIdeal
import Idealize.ShloMosaic.Lib.Pipeline.Value

set_option maxRecDepth 16384

noncomputable section

namespace Cert.KernelIdeal.Region0

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's index map is t ↦ (t, 0): decided over the 50 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 50 := lt_of_lt_of_eq t.isLt N_0

/-- Window 0's block at point t sits at rows t·10000 … t·10000 + 9999 of its array, all 64 columns. -/
theorem emb0 (t : Fin cfg0.N) (j : ((cfg0.win 0).xblock (grid0.coords t)).Idx) (hr : t.val * 10000 + (j 0).val < 500000) (h1 : (j 1).val < 64) :
    ((cfg0.win 0).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win0_0.index t (0 : Fin 2) * 10000 + 1 * (j 0).val = t.val * 10000 + (j 0).val; omega
  | ⟨1, _⟩ => show win0_0.index t (1 : Fin 2) * 64 + 1 * (j 1).val = (j 1).val; omega

/-- Window 1's block at point t sits at rows t·10000 … t·10000 + 9999 of its array, all 64 columns. -/
theorem emb1 (t : Fin cfg0.N) (j : ((cfg0.win 1).xblock (grid0.coords t)).Idx) (hr : t.val * 10000 + (j 0).val < 500000) (h1 : (j 1).val < 64) :
    ((cfg0.win 1).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win0_1.index t (0 : Fin 2) * 10000 + 1 * (j 0).val = t.val * 10000 + (j 0).val; omega
  | ⟨1, _⟩ => show win0_1.index t (1 : Fin 2) * 64 + 1 * (j 1).val = (j 1).val; omega

/-- Window 2's block at point t sits at rows t·10000 … t·10000 + 9999 of its array, all 64 columns. -/
theorem emb2 (t : Fin cfg0.N) (j : ((cfg0.win 2).xblock (grid0.coords t)).Idx) (hr : t.val * 10000 + (j 0).val < 500000) (h1 : (j 1).val < 64) :
    ((cfg0.win 2).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win0_2.index t (0 : Fin 2) * 10000 + 1 * (j 0).val = t.val * 10000 + (j 0).val; omega
  | ⟨1, _⟩ => show win0_2.index t (1 : Fin 2) * 64 + 1 * (j 1).val = (j 1).val; omega

/-- Window 3's block at point t sits at rows t·10000 … t·10000 + 9999 of its array, all 64 columns. -/
theorem emb3 (t : Fin cfg0.N) (j : ((cfg0.win 3).xblock (grid0.coords t)).Idx) (hr : t.val * 10000 + (j 0).val < 500000) (h1 : (j 1).val < 64) :
    ((cfg0.win 3).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win0_3.index t (0 : Fin 2) * 10000 + 1 * (j 0).val = t.val * 10000 + (j 0).val; omega
  | ⟨1, _⟩ => show win0_3.index t (1 : Fin 2) * 64 + 1 * (j 1).val = (j 1).val; omega

/-- Window 4's block at point t sits at rows t·10000 … t·10000 + 9999 of its array, all 64 columns. -/
theorem emb4 (t : Fin cfg0.N) (j : ((cfg0.win 4).xblock (grid0.coords t)).Idx) (hr : t.val * 10000 + (j 0).val < 500000) (h1 : (j 1).val < 64) :
    ((cfg0.win 4).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win0_4.index t (0 : Fin 2) * 10000 + 1 * (j 0).val = t.val * 10000 + (j 0).val; omega
  | ⟨1, _⟩ => show win0_4.index t (1 : Fin 2) * 64 + 1 * (j 1).val = (j 1).val; omega

/-! ## What a point writes back -/

/-- The perturbation's entry, with the three block reads put back into the arrays. -/
theorem pay1_at (c : Dev nD) (t : Fin cfg0.N) (j : ((cfg0.win 3).xblock (grid0.coords t)).Idx) :
    k0_pay1 (F := Ideal) (iblk0 V c 0 t) (iblk0 V c 1 t) j
      = Cert.Spec.perturb (F := Ideal) (V c main_v14) (V c main_v16) (((cfg0.win 3).blk t).view.emb j) := by
  have ht := point_lt t
  have hj0 : (j 0).val < 10000 := (j 0).isLt
  have hj1 : (j 1).val < 64 := (j 1).isLt
  have hr : t.val * 10000 + (j 0).val < 500000 := by omega
  rw [emb3 t j hr hj1, Cert.Spec.perturb_apply]
  have hj : j = ix2 (⟨(j 0).val, hj0⟩ : Fin 10000) (⟨(j 1).val, hj1⟩ : Fin 64) :=
    funext fun a => Fin.ext (by match a with | ⟨0, _⟩ => rfl | ⟨1, _⟩ => rfl)
  refine ((congrArg (k0_pay1 (F := Ideal) (iblk0 V c 0 t) (iblk0 V c 1 t)) hj).trans
    (Pay.pay1_apply (iblk0 V c 0 t) (iblk0 V c 1 t) ⟨(j 0).val, hj0⟩ ⟨(j 1).val, hj1⟩)).trans ?_
  have h0 : iblk0 V c 0 t (ix2 (⟨(j 0).val, hj0⟩ : Fin 10000) (⟨(j 1).val, hj1⟩ : Fin 64))
      = V c main_v14 (ix2 (⟨t.val * 10000 + (j 0).val, hr⟩ : Fin 500000) (⟨(j 1).val, hj1⟩ : Fin 64)) :=
    congrArg (V c main_v14) (emb0 t (ix2 (⟨(j 0).val, hj0⟩ : Fin 10000) (⟨(j 1).val, hj1⟩ : Fin 64)) hr hj1)
  have h1 : ∀ k : Fin 64, iblk0 V c 1 t (ix2 (⟨(j 0).val, hj0⟩ : Fin 10000) k)
      = V c main_v16 (ix2 (⟨t.val * 10000 + (j 0).val, hr⟩ : Fin 500000) k) :=
    fun k => congrArg (V c main_v16) (emb1 t (ix2 (⟨(j 0).val, hj0⟩ : Fin 10000) k) hr k.isLt)
  rw [h0, h1 ⟨(j 1).val, hj1⟩]
  exact congrArg _ (Finset.sum_congr rfl fun k _ => by rw [h1 k])

/-- WHAT POINT t WRITES BACK to the first output: block t of the perturbation of the arrays the call was entered with. -/
theorem flushed3_eq (c : Dev nD) (t : Fin cfg0.N) :
    (dat0 V c).flushed 3 t = ((cfg0.win 3).blk t).view.read (Elt Ideal) (Cert.Spec.perturb (F := Ideal) (V c main_v14) (V c main_v16)) := by
  show (cfg0.win 3).cut (grid0.coords t) ((dat0 V c).after 3 t) = _
  rw [after0_3]
  unfold out0_3
  rw [View.canon_unit_zero hz]
  simp only [View.ld_unit_zero (S := S10000x64) hz]
  funext j
  exact (congrFun (Pay.k0_pay1_eq (iblk0 V c 0 t) (iblk0 V c 1 t)) j).trans (pay1_at V c t j)

/-- And to the second: block t of the running sum plus that perturbation. -/
theorem flushed4_eq (c : Dev nD) (t : Fin cfg0.N) :
    (dat0 V c).flushed 4 t = ((cfg0.win 4).blk t).view.read (Elt Ideal)
      (addf (V c main_v1) (Cert.Spec.perturb (F := Ideal) (V c main_v14) (V c main_v16))) := by
  show (cfg0.win 4).cut (grid0.coords t) ((dat0 V c).after 4 t) = _
  rw [after0_4]
  unfold out0_4
  rw [View.canon_unit_zero hz]
  simp only [View.ld_unit_zero (S := S10000x64) hz]
  funext j
  have ht := point_lt t
  have hj0 : (j 0).val < 10000 := (j 0).isLt
  have hj1 : (j 1).val < 64 := (j 1).isLt
  have hr : t.val * 10000 + (j 0).val < 500000 := by omega
  have e2 : iblk0 V c 2 t j = V c main_v1 (((cfg0.win 4).blk t).view.emb j) :=
    congrArg (V c main_v1) ((emb2 t j hr hj1).trans (emb4 t j hr hj1).symm)
  have e34 : ((cfg0.win 4).blk t).view.emb j = ((cfg0.win 3).blk t).view.emb j := (emb4 t j hr hj1).trans (emb3 t j hr hj1).symm
  have e1 : k0_pay1 (F := Ideal) (iblk0 V c 0 t) (iblk0 V c 1 t) j
      = Cert.Spec.perturb (F := Ideal) (V c main_v14) (V c main_v16) (((cfg0.win 4).blk t).view.emb j) :=
    (pay1_at V c t j).trans (congrArg (Cert.Spec.perturb (F := Ideal) (V c main_v14) (V c main_v16)) e34.symm)
  exact (congrFun ((Pay.k0_pay2_eq (iblk0 V c 0 t) (iblk0 V c 1 t) (iblk0 V c 2 t)).trans
      (Pay.pay2_eq (iblk0 V c 0 t) (iblk0 V c 1 t) (iblk0 V c 2 t))) j).trans
    (congrArg₂ (FloatOps.addf (F := Ideal) (φ := .f32)) e2 e1)

/-! ## The blocks cover the arrays -/

theorem mem_blk3 (t : Fin cfg0.N) (i : S500000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v17_0).slice (win0_3.rect t)).set ↔ _
  rw [View.set_slice_whole, Rect.mem_set_unit]
  exact Iff.rfl

theorem mem_blk4 (t : Fin cfg0.N) (i : S500000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v17_1).slice (win0_4.rect t)).set ↔ _
  rw [View.set_slice_whole, Rect.mem_set_unit]
  exact Iff.rfl

/-- Row r lies in block r / 10000. -/
theorem cover3 (i : S500000x64.Idx) : ∃ t : Fin cfg0.N, (cfg0.win 3).flush t = true ∧ i ∈ ((cfg0.win 3).blk t).view.set := by
  have hi0 : (i 0).val < 500000 := (i 0).isLt
  have hi1 : (i 1).val < 64 := (i 1).isLt
  refine ⟨⟨(i 0).val / 10000, lt_of_lt_of_eq (by omega : (i 0).val / 10000 < 50) N_0.symm⟩, flush0_3 _, ?_⟩
  rw [mem_blk3]
  obtain ⟨e00, e01, e10, e11, e20, e21, e30, e31, e40, e41⟩ := idx_facts ⟨(i 0).val / 10000, lt_of_lt_of_eq (by omega : (i 0).val / 10000 < 50) N_0.symm⟩
  intro a
  match a with
  | ⟨0, _⟩ => show win0_3.index _ (0 : Fin 2) * 10000 ≤ (i 0).val ∧ (i 0).val < win0_3.index _ (0 : Fin 2) * 10000 + 10000; rw [e30]; show (i 0).val / 10000 * 10000 ≤ (i 0).val ∧ (i 0).val < (i 0).val / 10000 * 10000 + 10000; omega
  | ⟨1, _⟩ => show win0_3.index _ (1 : Fin 2) * 64 ≤ (i 1).val ∧ (i 1).val < win0_3.index _ (1 : Fin 2) * 64 + 64; rw [e31]; omega

theorem cover4 (i : S500000x64.Idx) : ∃ t : Fin cfg0.N, (cfg0.win 4).flush t = true ∧ i ∈ ((cfg0.win 4).blk t).view.set := by
  have hi0 : (i 0).val < 500000 := (i 0).isLt
  have hi1 : (i 1).val < 64 := (i 1).isLt
  refine ⟨⟨(i 0).val / 10000, lt_of_lt_of_eq (by omega : (i 0).val / 10000 < 50) N_0.symm⟩, flush0_4 _, ?_⟩
  rw [mem_blk4]
  obtain ⟨e00, e01, e10, e11, e20, e21, e30, e31, e40, e41⟩ := idx_facts ⟨(i 0).val / 10000, lt_of_lt_of_eq (by omega : (i 0).val / 10000 < 50) N_0.symm⟩
  intro a
  match a with
  | ⟨0, _⟩ => show win0_4.index _ (0 : Fin 2) * 10000 ≤ (i 0).val ∧ (i 0).val < win0_4.index _ (0 : Fin 2) * 10000 + 10000; rw [e40]; show (i 0).val / 10000 * 10000 ≤ (i 0).val ∧ (i 0).val < (i 0).val / 10000 * 10000 + 10000; omega
  | ⟨1, _⟩ => show win0_4.index _ (1 : Fin 2) * 64 ≤ (i 1).val ∧ (i 1).val < win0_4.index _ (1 : Fin 2) * 64 + 64; rw [e41]; omega

/-! ## The two output arrays after the call -/

/-- THE FIRST OUTPUT ARRAY: the perturbation of the arrays the call was entered with. -/
theorem final3 (c : Dev nD) : (dat0 V c).arrAt 3 cfg0.N = Cert.Spec.perturb (F := Ideal) (V c main_v14) (V c main_v16) :=
  (dat0 V c).arrAt_eq_of_cover 3 (Cert.Spec.perturb (F := Ideal) (V c main_v14) (V c main_v16)) (fun t _ => flushed3_eq V c t) cover3

/-- THE SECOND: the running sum plus it. -/
theorem final4 (c : Dev nD) : (dat0 V c).arrAt 4 cfg0.N = addf (V c main_v1) (Cert.Spec.perturb (F := Ideal) (V c main_v14) (V c main_v16)) :=
  (dat0 V c).arrAt_eq_of_cover 4 (addf (V c main_v1) (Cert.Spec.perturb (F := Ideal) (V c main_v14) (V c main_v16))) (fun t _ => flushed4_eq V c t) cover4

end Cert.KernelIdeal.Region0

end
-- ==== Proof.KRegion1.lean ====
/-
  The second pallas_call, from blocks to arrays.

  Its grid has 50 points; at point t every window's block is rows t·10000 … t·10000 + 9999 of its array, all 64 columns.
  The body's first stored value at the block's entry (p, q) depends on the block's entry (p, q) of sp, on the noise's, and on the
  noise's whole block row p — which is the array's row t·10000 + p. So what point t writes back is block t of the
  perturbation of the whole arrays (`Spec.perturb_apply` and `Pay.pay1_apply` meet at `Spec.pert`), the 50 blocks cover
  the array, and the call's two output arrays end at  perturb sp nk  and  acc + perturb sp nk  of the arrays it was entered with.
-/
import proofs.«158097_j566935683766_1_alg».proof.Proof.PKernelIdealFrame
import proofs.«158097_j566935683766_1_alg».proof.Proof.KPayload
import proofs.«158097_j566935683766_1_alg».proof.Proof.Gen.ReferenceIdeal
import Idealize.ShloMosaic.Lib.Pipeline.Value

set_option maxRecDepth 16384

noncomputable section

namespace Cert.KernelIdeal.Region1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's index map is t ↦ (t, 0): decided over the 50 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 50 := lt_of_lt_of_eq t.isLt N_1

/-- Window 0's block at point t sits at rows t·10000 … t·10000 + 9999 of its array, all 64 columns. -/
theorem emb0 (t : Fin cfg1.N) (j : ((cfg1.win 0).xblock (grid1.coords t)).Idx) (hr : t.val * 10000 + (j 0).val < 500000) (h1 : (j 1).val < 64) :
    ((cfg1.win 0).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win1_0.index t (0 : Fin 2) * 10000 + 1 * (j 0).val = t.val * 10000 + (j 0).val; omega
  | ⟨1, _⟩ => show win1_0.index t (1 : Fin 2) * 64 + 1 * (j 1).val = (j 1).val; omega

/-- Window 1's block at point t sits at rows t·10000 … t·10000 + 9999 of its array, all 64 columns. -/
theorem emb1 (t : Fin cfg1.N) (j : ((cfg1.win 1).xblock (grid1.coords t)).Idx) (hr : t.val * 10000 + (j 0).val < 500000) (h1 : (j 1).val < 64) :
    ((cfg1.win 1).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win1_1.index t (0 : Fin 2) * 10000 + 1 * (j 0).val = t.val * 10000 + (j 0).val; omega
  | ⟨1, _⟩ => show win1_1.index t (1 : Fin 2) * 64 + 1 * (j 1).val = (j 1).val; omega

/-- Window 2's block at point t sits at rows t·10000 … t·10000 + 9999 of its array, all 64 columns. -/
theorem emb2 (t : Fin cfg1.N) (j : ((cfg1.win 2).xblock (grid1.coords t)).Idx) (hr : t.val * 10000 + (j 0).val < 500000) (h1 : (j 1).val < 64) :
    ((cfg1.win 2).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win1_2.index t (0 : Fin 2) * 10000 + 1 * (j 0).val = t.val * 10000 + (j 0).val; omega
  | ⟨1, _⟩ => show win1_2.index t (1 : Fin 2) * 64 + 1 * (j 1).val = (j 1).val; omega

/-- Window 3's block at point t sits at rows t·10000 … t·10000 + 9999 of its array, all 64 columns. -/
theorem emb3 (t : Fin cfg1.N) (j : ((cfg1.win 3).xblock (grid1.coords t)).Idx) (hr : t.val * 10000 + (j 0).val < 500000) (h1 : (j 1).val < 64) :
    ((cfg1.win 3).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win1_3.index t (0 : Fin 2) * 10000 + 1 * (j 0).val = t.val * 10000 + (j 0).val; omega
  | ⟨1, _⟩ => show win1_3.index t (1 : Fin 2) * 64 + 1 * (j 1).val = (j 1).val; omega

/-- Window 4's block at point t sits at rows t·10000 … t·10000 + 9999 of its array, all 64 columns. -/
theorem emb4 (t : Fin cfg1.N) (j : ((cfg1.win 4).xblock (grid1.coords t)).Idx) (hr : t.val * 10000 + (j 0).val < 500000) (h1 : (j 1).val < 64) :
    ((cfg1.win 4).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win1_4.index t (0 : Fin 2) * 10000 + 1 * (j 0).val = t.val * 10000 + (j 0).val; omega
  | ⟨1, _⟩ => show win1_4.index t (1 : Fin 2) * 64 + 1 * (j 1).val = (j 1).val; omega

/-! ## What a point writes back -/

/-- The perturbation's entry, with the three block reads put back into the arrays. -/
theorem pay1_at (c : Dev nD) (t : Fin cfg1.N) (j : ((cfg1.win 3).xblock (grid1.coords t)).Idx) :
    k0_pay1 (F := Ideal) (iblk1 V c 0 t) (iblk1 V c 1 t) j
      = Cert.Spec.perturb (F := Ideal) (V c main_v30) (V c main_v32) (((cfg1.win 3).blk t).view.emb j) := by
  have ht := point_lt t
  have hj0 : (j 0).val < 10000 := (j 0).isLt
  have hj1 : (j 1).val < 64 := (j 1).isLt
  have hr : t.val * 10000 + (j 0).val < 500000 := by omega
  rw [emb3 t j hr hj1, Cert.Spec.perturb_apply]
  have hj : j = ix2 (⟨(j 0).val, hj0⟩ : Fin 10000) (⟨(j 1).val, hj1⟩ : Fin 64) :=
    funext fun a => Fin.ext (by match a with | ⟨0, _⟩ => rfl | ⟨1, _⟩ => rfl)
  refine ((congrArg (k0_pay1 (F := Ideal) (iblk1 V c 0 t) (iblk1 V c 1 t)) hj).trans
    (Pay.pay1_apply (iblk1 V c 0 t) (iblk1 V c 1 t) ⟨(j 0).val, hj0⟩ ⟨(j 1).val, hj1⟩)).trans ?_
  have h0 : iblk1 V c 0 t (ix2 (⟨(j 0).val, hj0⟩ : Fin 10000) (⟨(j 1).val, hj1⟩ : Fin 64))
      = V c main_v30 (ix2 (⟨t.val * 10000 + (j 0).val, hr⟩ : Fin 500000) (⟨(j 1).val, hj1⟩ : Fin 64)) :=
    congrArg (V c main_v30) (emb0 t (ix2 (⟨(j 0).val, hj0⟩ : Fin 10000) (⟨(j 1).val, hj1⟩ : Fin 64)) hr hj1)
  have h1 : ∀ k : Fin 64, iblk1 V c 1 t (ix2 (⟨(j 0).val, hj0⟩ : Fin 10000) k)
      = V c main_v32 (ix2 (⟨t.val * 10000 + (j 0).val, hr⟩ : Fin 500000) k) :=
    fun k => congrArg (V c main_v32) (emb1 t (ix2 (⟨(j 0).val, hj0⟩ : Fin 10000) k) hr k.isLt)
  rw [h0, h1 ⟨(j 1).val, hj1⟩]
  exact congrArg _ (Finset.sum_congr rfl fun k _ => by rw [h1 k])

/-- WHAT POINT t WRITES BACK to the first output: block t of the perturbation of the arrays the call was entered with. -/
theorem flushed3_eq (c : Dev nD) (t : Fin cfg1.N) :
    (dat1 V c).flushed 3 t = ((cfg1.win 3).blk t).view.read (Elt Ideal) (Cert.Spec.perturb (F := Ideal) (V c main_v30) (V c main_v32)) := by
  show (cfg1.win 3).cut (grid1.coords t) ((dat1 V c).after 3 t) = _
  rw [after1_3]
  unfold out1_3
  rw [View.canon_unit_zero hz]
  simp only [View.ld_unit_zero (S := S10000x64) hz]
  funext j
  exact (congrFun (Pay.k1_pay1_eq (iblk1 V c 0 t) (iblk1 V c 1 t)) j).trans (pay1_at V c t j)

/-- And to the second: block t of the running sum plus that perturbation. -/
theorem flushed4_eq (c : Dev nD) (t : Fin cfg1.N) :
    (dat1 V c).flushed 4 t = ((cfg1.win 4).blk t).view.read (Elt Ideal)
      (addf (V c main_v17_1) (Cert.Spec.perturb (F := Ideal) (V c main_v30) (V c main_v32))) := by
  show (cfg1.win 4).cut (grid1.coords t) ((dat1 V c).after 4 t) = _
  rw [after1_4]
  unfold out1_4
  rw [View.canon_unit_zero hz]
  simp only [View.ld_unit_zero (S := S10000x64) hz]
  funext j
  have ht := point_lt t
  have hj0 : (j 0).val < 10000 := (j 0).isLt
  have hj1 : (j 1).val < 64 := (j 1).isLt
  have hr : t.val * 10000 + (j 0).val < 500000 := by omega
  have e2 : iblk1 V c 2 t j = V c main_v17_1 (((cfg1.win 4).blk t).view.emb j) :=
    congrArg (V c main_v17_1) ((emb2 t j hr hj1).trans (emb4 t j hr hj1).symm)
  have e34 : ((cfg1.win 4).blk t).view.emb j = ((cfg1.win 3).blk t).view.emb j := (emb4 t j hr hj1).trans (emb3 t j hr hj1).symm
  have e1 : k0_pay1 (F := Ideal) (iblk1 V c 0 t) (iblk1 V c 1 t) j
      = Cert.Spec.perturb (F := Ideal) (V c main_v30) (V c main_v32) (((cfg1.win 4).blk t).view.emb j) :=
    (pay1_at V c t j).trans (congrArg (Cert.Spec.perturb (F := Ideal) (V c main_v30) (V c main_v32)) e34.symm)
  exact (congrFun ((Pay.k1_pay2_eq (iblk1 V c 0 t) (iblk1 V c 1 t) (iblk1 V c 2 t)).trans
      (Pay.pay2_eq (iblk1 V c 0 t) (iblk1 V c 1 t) (iblk1 V c 2 t))) j).trans
    (congrArg₂ (FloatOps.addf (F := Ideal) (φ := .f32)) e2 e1)

/-! ## The blocks cover the arrays -/

theorem mem_blk3 (t : Fin cfg1.N) (i : S500000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v33_0).slice (win1_3.rect t)).set ↔ _
  rw [View.set_slice_whole, Rect.mem_set_unit]
  exact Iff.rfl

theorem mem_blk4 (t : Fin cfg1.N) (i : S500000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v33_1).slice (win1_4.rect t)).set ↔ _
  rw [View.set_slice_whole, Rect.mem_set_unit]
  exact Iff.rfl

/-- Row r lies in block r / 10000. -/
theorem cover3 (i : S500000x64.Idx) : ∃ t : Fin cfg1.N, (cfg1.win 3).flush t = true ∧ i ∈ ((cfg1.win 3).blk t).view.set := by
  have hi0 : (i 0).val < 500000 := (i 0).isLt
  have hi1 : (i 1).val < 64 := (i 1).isLt
  refine ⟨⟨(i 0).val / 10000, lt_of_lt_of_eq (by omega : (i 0).val / 10000 < 50) N_1.symm⟩, flush1_3 _, ?_⟩
  rw [mem_blk3]
  obtain ⟨e00, e01, e10, e11, e20, e21, e30, e31, e40, e41⟩ := idx_facts ⟨(i 0).val / 10000, lt_of_lt_of_eq (by omega : (i 0).val / 10000 < 50) N_1.symm⟩
  intro a
  match a with
  | ⟨0, _⟩ => show win1_3.index _ (0 : Fin 2) * 10000 ≤ (i 0).val ∧ (i 0).val < win1_3.index _ (0 : Fin 2) * 10000 + 10000; rw [e30]; show (i 0).val / 10000 * 10000 ≤ (i 0).val ∧ (i 0).val < (i 0).val / 10000 * 10000 + 10000; omega
  | ⟨1, _⟩ => show win1_3.index _ (1 : Fin 2) * 64 ≤ (i 1).val ∧ (i 1).val < win1_3.index _ (1 : Fin 2) * 64 + 64; rw [e31]; omega

theorem cover4 (i : S500000x64.Idx) : ∃ t : Fin cfg1.N, (cfg1.win 4).flush t = true ∧ i ∈ ((cfg1.win 4).blk t).view.set := by
  have hi0 : (i 0).val < 500000 := (i 0).isLt
  have hi1 : (i 1).val < 64 := (i 1).isLt
  refine ⟨⟨(i 0).val / 10000, lt_of_lt_of_eq (by omega : (i 0).val / 10000 < 50) N_1.symm⟩, flush1_4 _, ?_⟩
  rw [mem_blk4]
  obtain ⟨e00, e01, e10, e11, e20, e21, e30, e31, e40, e41⟩ := idx_facts ⟨(i 0).val / 10000, lt_of_lt_of_eq (by omega : (i 0).val / 10000 < 50) N_1.symm⟩
  intro a
  match a with
  | ⟨0, _⟩ => show win1_4.index _ (0 : Fin 2) * 10000 ≤ (i 0).val ∧ (i 0).val < win1_4.index _ (0 : Fin 2) * 10000 + 10000; rw [e40]; show (i 0).val / 10000 * 10000 ≤ (i 0).val ∧ (i 0).val < (i 0).val / 10000 * 10000 + 10000; omega
  | ⟨1, _⟩ => show win1_4.index _ (1 : Fin 2) * 64 ≤ (i 1).val ∧ (i 1).val < win1_4.index _ (1 : Fin 2) * 64 + 64; rw [e41]; omega

/-! ## The two output arrays after the call -/

/-- THE FIRST OUTPUT ARRAY: the perturbation of the arrays the call was entered with. -/
theorem final3 (c : Dev nD) : (dat1 V c).arrAt 3 cfg1.N = Cert.Spec.perturb (F := Ideal) (V c main_v30) (V c main_v32) :=
  (dat1 V c).arrAt_eq_of_cover 3 (Cert.Spec.perturb (F := Ideal) (V c main_v30) (V c main_v32)) (fun t _ => flushed3_eq V c t) cover3

/-- THE SECOND: the running sum plus it. -/
theorem final4 (c : Dev nD) : (dat1 V c).arrAt 4 cfg1.N = addf (V c main_v17_1) (Cert.Spec.perturb (F := Ideal) (V c main_v30) (V c main_v32)) :=
  (dat1 V c).arrAt_eq_of_cover 4 (addf (V c main_v17_1) (Cert.Spec.perturb (F := Ideal) (V c main_v30) (V c main_v32))) (fun t _ => flushed4_eq V c t) cover4

end Cert.KernelIdeal.Region1

end
-- ==== Proof.KRegion2.lean ====
/-
  The third pallas_call, from blocks to arrays.

  Its grid has 50 points; at point t every window's block is rows t·10000 … t·10000 + 9999 of its array, all 64 columns.
  The body's first stored value at the block's entry (p, q) depends on the block's entry (p, q) of sp, on the noise's, and on the
  noise's whole block row p — which is the array's row t·10000 + p. So what point t writes back is block t of the
  perturbation of the whole arrays (`Spec.perturb_apply` and `Pay.pay1_apply` meet at `Spec.pert`), the 50 blocks cover
  the array, and the call's two output arrays end at  perturb sp nk  and  acc + perturb sp nk  of the arrays it was entered with.
-/
import proofs.«158097_j566935683766_1_alg».proof.Proof.PKernelIdealFrame
import proofs.«158097_j566935683766_1_alg».proof.Proof.KPayload
import proofs.«158097_j566935683766_1_alg».proof.Proof.Gen.ReferenceIdeal
import Idealize.ShloMosaic.Lib.Pipeline.Value

set_option maxRecDepth 16384

noncomputable section

namespace Cert.KernelIdeal.Region2

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's index map is t ↦ (t, 0): decided over the 50 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 50 := lt_of_lt_of_eq t.isLt N_2

/-- Window 0's block at point t sits at rows t·10000 … t·10000 + 9999 of its array, all 64 columns. -/
theorem emb0 (t : Fin cfg2.N) (j : ((cfg2.win 0).xblock (grid2.coords t)).Idx) (hr : t.val * 10000 + (j 0).val < 500000) (h1 : (j 1).val < 64) :
    ((cfg2.win 0).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win2_0.index t (0 : Fin 2) * 10000 + 1 * (j 0).val = t.val * 10000 + (j 0).val; omega
  | ⟨1, _⟩ => show win2_0.index t (1 : Fin 2) * 64 + 1 * (j 1).val = (j 1).val; omega

/-- Window 1's block at point t sits at rows t·10000 … t·10000 + 9999 of its array, all 64 columns. -/
theorem emb1 (t : Fin cfg2.N) (j : ((cfg2.win 1).xblock (grid2.coords t)).Idx) (hr : t.val * 10000 + (j 0).val < 500000) (h1 : (j 1).val < 64) :
    ((cfg2.win 1).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win2_1.index t (0 : Fin 2) * 10000 + 1 * (j 0).val = t.val * 10000 + (j 0).val; omega
  | ⟨1, _⟩ => show win2_1.index t (1 : Fin 2) * 64 + 1 * (j 1).val = (j 1).val; omega

/-- Window 2's block at point t sits at rows t·10000 … t·10000 + 9999 of its array, all 64 columns. -/
theorem emb2 (t : Fin cfg2.N) (j : ((cfg2.win 2).xblock (grid2.coords t)).Idx) (hr : t.val * 10000 + (j 0).val < 500000) (h1 : (j 1).val < 64) :
    ((cfg2.win 2).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win2_2.index t (0 : Fin 2) * 10000 + 1 * (j 0).val = t.val * 10000 + (j 0).val; omega
  | ⟨1, _⟩ => show win2_2.index t (1 : Fin 2) * 64 + 1 * (j 1).val = (j 1).val; omega

/-- Window 3's block at point t sits at rows t·10000 … t·10000 + 9999 of its array, all 64 columns. -/
theorem emb3 (t : Fin cfg2.N) (j : ((cfg2.win 3).xblock (grid2.coords t)).Idx) (hr : t.val * 10000 + (j 0).val < 500000) (h1 : (j 1).val < 64) :
    ((cfg2.win 3).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win2_3.index t (0 : Fin 2) * 10000 + 1 * (j 0).val = t.val * 10000 + (j 0).val; omega
  | ⟨1, _⟩ => show win2_3.index t (1 : Fin 2) * 64 + 1 * (j 1).val = (j 1).val; omega

/-- Window 4's block at point t sits at rows t·10000 … t·10000 + 9999 of its array, all 64 columns. -/
theorem emb4 (t : Fin cfg2.N) (j : ((cfg2.win 4).xblock (grid2.coords t)).Idx) (hr : t.val * 10000 + (j 0).val < 500000) (h1 : (j 1).val < 64) :
    ((cfg2.win 4).blk t).view.emb j = ix2 (⟨t.val * 10000 + (j 0).val, hr⟩ : Fin 500000) (⟨(j 1).val, h1⟩ : Fin 64) := by
  obtain ⟨e00, e01, e10, e11, e20, e21, e30, e31, e40, e41⟩ := idx_facts t
  funext a; apply Fin.ext
  match a with
  | ⟨0, _⟩ => show win2_4.index t (0 : Fin 2) * 10000 + 1 * (j 0).val = t.val * 10000 + (j 0).val; omega
  | ⟨1, _⟩ => show win2_4.index t (1 : Fin 2) * 64 + 1 * (j 1).val = (j 1).val; omega

/-! ## What a point writes back -/

/-- The perturbation's entry, with the three block reads put back into the arrays. -/
theorem pay1_at (c : Dev nD) (t : Fin cfg2.N) (j : ((cfg2.win 3).xblock (grid2.coords t)).Idx) :
    k0_pay1 (F := Ideal) (iblk2 V c 0 t) (iblk2 V c 1 t) j
      = Cert.Spec.perturb (F := Ideal) (V c main_v46) (V c main_v48) (((cfg2.win 3).blk t).view.emb j) := by
  have ht := point_lt t
  have hj0 : (j 0).val < 10000 := (j 0).isLt
  have hj1 : (j 1).val < 64 := (j 1).isLt
  have hr : t.val * 10000 + (j 0).val < 500000 := by omega
  rw [emb3 t j hr hj1, Cert.Spec.perturb_apply]
  have hj : j = ix2 (⟨(j 0).val, hj0⟩ : Fin 10000) (⟨(j 1).val, hj1⟩ : Fin 64) :=
    funext fun a => Fin.ext (by match a with | ⟨0, _⟩ => rfl | ⟨1, _⟩ => rfl)
  refine ((congrArg (k0_pay1 (F := Ideal) (iblk2 V c 0 t) (iblk2 V c 1 t)) hj).trans
    (Pay.pay1_apply (iblk2 V c 0 t) (iblk2 V c 1 t) ⟨(j 0).val, hj0⟩ ⟨(j 1).val, hj1⟩)).trans ?_
  have h0 : iblk2 V c 0 t (ix2 (⟨(j 0).val, hj0⟩ : Fin 10000) (⟨(j 1).val, hj1⟩ : Fin 64))
      = V c main_v46 (ix2 (⟨t.val * 10000 + (j 0).val, hr⟩ : Fin 500000) (⟨(j 1).val, hj1⟩ : Fin 64)) :=
    congrArg (V c main_v46) (emb0 t (ix2 (⟨(j 0).val, hj0⟩ : Fin 10000) (⟨(j 1).val, hj1⟩ : Fin 64)) hr hj1)
  have h1 : ∀ k : Fin 64, iblk2 V c 1 t (ix2 (⟨(j 0).val, hj0⟩ : Fin 10000) k)
      = V c main_v48 (ix2 (⟨t.val * 10000 + (j 0).val, hr⟩ : Fin 500000) k) :=
    fun k => congrArg (V c main_v48) (emb1 t (ix2 (⟨(j 0).val, hj0⟩ : Fin 10000) k) hr k.isLt)
  rw [h0, h1 ⟨(j 1).val, hj1⟩]
  exact congrArg _ (Finset.sum_congr rfl fun k _ => by rw [h1 k])

/-- WHAT POINT t WRITES BACK to the first output: block t of the perturbation of the arrays the call was entered with. -/
theorem flushed3_eq (c : Dev nD) (t : Fin cfg2.N) :
    (dat2 V c).flushed 3 t = ((cfg2.win 3).blk t).view.read (Elt Ideal) (Cert.Spec.perturb (F := Ideal) (V c main_v46) (V c main_v48)) := by
  show (cfg2.win 3).cut (grid2.coords t) ((dat2 V c).after 3 t) = _
  rw [after2_3]
  unfold out2_3
  rw [View.canon_unit_zero hz]
  simp only [View.ld_unit_zero (S := S10000x64) hz]
  funext j
  exact (congrFun (Pay.k2_pay1_eq (iblk2 V c 0 t) (iblk2 V c 1 t)) j).trans (pay1_at V c t j)

/-- And to the second: block t of the running sum plus that perturbation. -/
theorem flushed4_eq (c : Dev nD) (t : Fin cfg2.N) :
    (dat2 V c).flushed 4 t = ((cfg2.win 4).blk t).view.read (Elt Ideal)
      (addf (V c main_v33_1) (Cert.Spec.perturb (F := Ideal) (V c main_v46) (V c main_v48))) := by
  show (cfg2.win 4).cut (grid2.coords t) ((dat2 V c).after 4 t) = _
  rw [after2_4]
  unfold out2_4
  rw [View.canon_unit_zero hz]
  simp only [View.ld_unit_zero (S := S10000x64) hz]
  funext j
  have ht := point_lt t
  have hj0 : (j 0).val < 10000 := (j 0).isLt
  have hj1 : (j 1).val < 64 := (j 1).isLt
  have hr : t.val * 10000 + (j 0).val < 500000 := by omega
  have e2 : iblk2 V c 2 t j = V c main_v33_1 (((cfg2.win 4).blk t).view.emb j) :=
    congrArg (V c main_v33_1) ((emb2 t j hr hj1).trans (emb4 t j hr hj1).symm)
  have e34 : ((cfg2.win 4).blk t).view.emb j = ((cfg2.win 3).blk t).view.emb j := (emb4 t j hr hj1).trans (emb3 t j hr hj1).symm
  have e1 : k0_pay1 (F := Ideal) (iblk2 V c 0 t) (iblk2 V c 1 t) j
      = Cert.Spec.perturb (F := Ideal) (V c main_v46) (V c main_v48) (((cfg2.win 4).blk t).view.emb j) :=
    (pay1_at V c t j).trans (congrArg (Cert.Spec.perturb (F := Ideal) (V c main_v46) (V c main_v48)) e34.symm)
  exact (congrFun ((Pay.k2_pay2_eq (iblk2 V c 0 t) (iblk2 V c 1 t) (iblk2 V c 2 t)).trans
      (Pay.pay2_eq (iblk2 V c 0 t) (iblk2 V c 1 t) (iblk2 V c 2 t))) j).trans
    (congrArg₂ (FloatOps.addf (F := Ideal) (φ := .f32)) e2 e1)

/-! ## The blocks cover the arrays -/

theorem mem_blk3 (t : Fin cfg2.N) (i : S500000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v49_0).slice (win2_3.rect t)).set ↔ _
  rw [View.set_slice_whole, Rect.mem_set_unit]
  exact Iff.rfl

theorem mem_blk4 (t : Fin cfg2.N) (i : S500000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v49_1).slice (win2_4.rect t)).set ↔ _
  rw [View.set_slice_whole, Rect.mem_set_unit]
  exact Iff.rfl

/-- Row r lies in block r / 10000. -/
theorem cover3 (i : S500000x64.Idx) : ∃ t : Fin cfg2.N, (cfg2.win 3).flush t = true ∧ i ∈ ((cfg2.win 3).blk t).view.set := by
  have hi0 : (i 0).val < 500000 := (i 0).isLt
  have hi1 : (i 1).val < 64 := (i 1).isLt
  refine ⟨⟨(i 0).val / 10000, lt_of_lt_of_eq (by omega : (i 0).val / 10000 < 50) N_2.symm⟩, flush2_3 _, ?_⟩
  rw [mem_blk3]
  obtain ⟨e00, e01, e10, e11, e20, e21, e30, e31, e40, e41⟩ := idx_facts ⟨(i 0).val / 10000, lt_of_lt_of_eq (by omega : (i 0).val / 10000 < 50) N_2.symm⟩
  intro a
  match a with
  | ⟨0, _⟩ => show win2_3.index _ (0 : Fin 2) * 10000 ≤ (i 0).val ∧ (i 0).val < win2_3.index _ (0 : Fin 2) * 10000 + 10000; rw [e30]; show (i 0).val / 10000 * 10000 ≤ (i 0).val ∧ (i 0).val < (i 0).val / 10000 * 10000 + 10000; omega
  | ⟨1, _⟩ => show win2_3.index _ (1 : Fin 2) * 64 ≤ (i 1).val ∧ (i 1).val < win2_3.index _ (1 : Fin 2) * 64 + 64; rw [e31]; omega

theorem cover4 (i : S500000x64.Idx) : ∃ t : Fin cfg2.N, (cfg2.win 4).flush t = true ∧ i ∈ ((cfg2.win 4).blk t).view.set := by
  have hi0 : (i 0).val < 500000 := (i 0).isLt
  have hi1 : (i 1).val < 64 := (i 1).isLt
  refine ⟨⟨(i 0).val / 10000, lt_of_lt_of_eq (by omega : (i 0).val / 10000 < 50) N_2.symm⟩, flush2_4 _, ?_⟩
  rw [mem_blk4]
  obtain ⟨e00, e01, e10, e11, e20, e21, e30, e31, e40, e41⟩ := idx_facts ⟨(i 0).val / 10000, lt_of_lt_of_eq (by omega : (i 0).val / 10000 < 50) N_2.symm⟩
  intro a
  match a with
  | ⟨0, _⟩ => show win2_4.index _ (0 : Fin 2) * 10000 ≤ (i 0).val ∧ (i 0).val < win2_4.index _ (0 : Fin 2) * 10000 + 10000; rw [e40]; show (i 0).val / 10000 * 10000 ≤ (i 0).val ∧ (i 0).val < (i 0).val / 10000 * 10000 + 10000; omega
  | ⟨1, _⟩ => show win2_4.index _ (1 : Fin 2) * 64 ≤ (i 1).val ∧ (i 1).val < win2_4.index _ (1 : Fin 2) * 64 + 64; rw [e41]; omega

/-! ## The two output arrays after the call -/

/-- THE FIRST OUTPUT ARRAY: the perturbation of the arrays the call was entered with. -/
theorem final3 (c : Dev nD) : (dat2 V c).arrAt 3 cfg2.N = Cert.Spec.perturb (F := Ideal) (V c main_v46) (V c main_v48) :=
  (dat2 V c).arrAt_eq_of_cover 3 (Cert.Spec.perturb (F := Ideal) (V c main_v46) (V c main_v48)) (fun t _ => flushed3_eq V c t) cover3

/-- THE SECOND: the running sum plus it. -/
theorem final4 (c : Dev nD) : (dat2 V c).arrAt 4 cfg2.N = addf (V c main_v33_1) (Cert.Spec.perturb (F := Ideal) (V c main_v46) (V c main_v48)) :=
  (dat2 V c).arrAt_eq_of_cover 4 (addf (V c main_v33_1) (Cert.Spec.perturb (F := Ideal) (V c main_v46) (V c main_v48))) (fun t _ => flushed4_eq V c t) cover4

end Cert.KernelIdeal.Region2

end
-- ==== Proof.KValue.lean ====
/-
  The kernel's program, read as a value.

  Folding through @main: the first call is entered with the sparse product of the joined embeddings, the first noise slab
  and the zero table, so it leaves ego₁ and 0 + ego₁; the second is entered with the sparse product of ego₁, the second
  slab and that running sum, and leaves ego₂ and (0 + ego₁) + ego₂; the third likewise leaves the sum of the three
  layers; the last stretch takes a third of it and cuts the two blocks of rows.  These are the specification's
  `outUsers` and `outItems` of the argument arrays.
-/
import proofs.«158097_j566935683766_1_alg».proof.Proof.PKernelIdealRun
import proofs.«158097_j566935683766_1_alg».proof.Proof.KStretch
import proofs.«158097_j566935683766_1_alg».proof.Proof.KRegion0
import proofs.«158097_j566935683766_1_alg».proof.Proof.KRegion1
import proofs.«158097_j566935683766_1_alg».proof.Proof.KRegion2

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Cert.KernelIdeal.Stretch

variable (m : (ℓ : Loc nD τ sig) → Buf (Elt Ideal) ℓ) (ρ : Dev nD → PrngReg)

/-! ## After the first call -/

theorem ego1 (c : Dev nD) : W2 m ρ c (Proc.devRef .tc main_v17_0)
    = Cert.Spec.layer1 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 3).trans ((Region0.final3 (V1 m ρ) c).trans ?_)
  unfold Cert.Spec.layer1
  rw [← W1_sp m ρ c, ← W1_nk m ρ c] <;> rfl

theorem sum1 (c : Dev nD) : W2 m ρ c (Proc.devRef .tc main_v17_1)
    = Cert.Spec.acc1 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 4).trans ((Region0.final4 (V1 m ρ) c).trans ?_)
  unfold Cert.Spec.acc1 Cert.Spec.layer1
  rw [← W1_sp m ρ c, ← W1_nk m ρ c, ← W1_acc m ρ c] <;> rfl

/-! ## After the second -/

theorem ego2 (c : Dev nD) : W4 m ρ c (Proc.devRef .tc main_v33_0)
    = Cert.Spec.layer2 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 3).trans ((Region1.final3 (V3 m ρ) c).trans ?_)
  unfold Cert.Spec.layer2
  rw [← ego1 m ρ c, ← W3_sp m ρ c, ← W3_nk m ρ c] <;> rfl

theorem sum2 (c : Dev nD) : W4 m ρ c (Proc.devRef .tc main_v33_1)
    = Cert.Spec.acc2 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 4).trans ((Region1.final4 (V3 m ρ) c).trans ?_)
  unfold Cert.Spec.acc2 Cert.Spec.layer2
  rw [← sum1 m ρ c, ← ego1 m ρ c, ← W3_sp m ρ c, ← W3_nk m ρ c, ← W3_acc m ρ c] <;> rfl

/-! ## After the third -/

theorem sum3 (c : Dev nD) : W6 m ρ c (Proc.devRef .tc main_v49_1)
    = Cert.Spec.acc3 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 4).trans ((Region2.final4 (V5 m ρ) c).trans ?_)
  unfold Cert.Spec.acc3 Cert.Spec.layer3
  rw [← sum2 m ρ c, ← ego2 m ρ c, ← W5_sp m ρ c, ← W5_nk m ρ c, ← W5_acc m ρ c] <;> rfl

/-! ## The results -/

theorem users (c : Dev nD) : W7 m ρ c (Proc.devRef .tc main_v52)
    = Cert.Spec.outUsers (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  exact (W7_users m ρ c).trans (congrArg (fun x => Cert.Spec.userRows (F := Ideal) (Cert.Spec.third (F := Ideal) x)) (sum3 m ρ c))

theorem items (c : Dev nD) : W7 m ρ c (Proc.devRef .tc main_v53)
    = Cert.Spec.outItems (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  exact (W7_items m ρ c).trans (congrArg (fun x => Cert.Spec.itemRows (F := Ideal) (Cert.Spec.third (F := Ideal) x)) (sum3 m ρ c))

/-- THE KERNEL'S RUN, READ: every weakly fair execution terminates with the two results at the specification's functions
    of the argument arrays, the arguments unchanged. -/
theorem run : θ_run defs (onTc (τ := τ) (main (F := Ideal))) ⟨m, fun _ => 0, ρ⟩ fun r => ∀ c : Dev nD,
      r.2.mem ((c.tc : Thread nD τ).loc main_v52)
        = Cert.Spec.outUsers (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v53)
        = Cert.Spec.outItems (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (users m ρ c), (h c).2.1.trans (items m ρ c), (h c).2.2⟩)
    (run_named m ρ)

end Cert.KernelIdeal.KValue

end
-- ==== Proof.RefValue.lean ====
/-
  The reference's run ends at the specification.

  The reference is the specification spelt out: its two result terms are `Spec.outUsers` and `Spec.outItems` of the
  argument arrays, operation for operation, so each equation holds by unfolding the names (at any float instance).
-/
import proofs.«158097_j566935683766_1_alg».proof.Proof.Gen.ReferenceIdeal.Run
import proofs.«158097_j566935683766_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 65536 in
/-- The first result: the user rows of the mean of the three layers. -/
theorem res_users (m : (ℓ : Loc nD τ sig) → Buf (Elt F) ℓ) (c : Dev nD) :
    res_main_v82 (F := F) m c
      = Cert.Spec.outUsers (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v82
  rfl

set_option maxRecDepth 65536 in
/-- The second: its item rows. -/
theorem res_items (m : (ℓ : Loc nD τ sig) → Buf (Elt F) ℓ) (c : Dev nD) :
    res_main_v83 (F := F) m c
      = Cert.Spec.outItems (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v83
  rfl

end Cert.ReferenceIdeal.RefValue

end
-- ==== Proof.lean ====
/-
  A graph encoder of three message-passing layers,  ego ↦ A · ego + sign(A · ego) · (noise / max(‖noise‖₂, ε)) · δ,  whose
  result is the mean of the three layers' tables: the kernel's program runs the sparse product A · ego on the host and the
  perturbation with the running sum in a pallas_call of 50 row blocks, once per layer; the reference runs all of it on
  the host.

  Over the extended reals the two are one function of the argument arrays (`Spec.outUsers`, `Spec.outItems`):
    * the sparse product, the noise slabs and the final mean are the same host operations on both sides, carried whole;
    * the perturbation is read entry by entry on both sides (`Spec.perturb_apply`, `Pay.pay1_apply`): the kernel's lane sum
      of squares over a block row is the host's row sum, its sign spelt by comparisons is the sign, and the blocks of a
      call cover its arrays (`Region0 / 1 / 2`);
    * folding through @main's stretches and calls gives the kernel's results (`KValue.run`), and the reference's result
      terms are the specification by unfolding (`RefValue`).
  No law of arithmetic beyond the order of a finite sum is used, so the finiteness of the inputs is never opened.
  The ideal pass rewrote the sign-bit window of each of the three calls: `preserves` is that rule's statement, three times.
-/
import proofs.«158097_j566935683766_1_alg».proof.Defs
import proofs.«158097_j566935683766_1_alg».proof.Proof.Gen.Kernel
import proofs.«158097_j566935683766_1_alg».proof.Proof.PKernelFrame
import proofs.«158097_j566935683766_1_alg».proof.Proof.Gen.KernelIdeal
import proofs.«158097_j566935683766_1_alg».proof.Proof.PKernelIdealFrame
import proofs.«158097_j566935683766_1_alg».proof.Proof.Gen.ReferenceIdeal
import proofs.«158097_j566935683766_1_alg».proof.Proof.Gen.ReferenceIdeal.Run
import proofs.«158097_j566935683766_1_alg».proof.Proof.Gen.Pre_finite_inputs
import proofs.«158097_j566935683766_1_alg».proof.Proof.KValue
import proofs.«158097_j566935683766_1_alg».proof.Proof.RefValue
import Idealize.ShloMosaic.Adequacy
import Idealize.ShloMosaic.Init

noncomputable section

namespace Cert.Proof

open Idealize.ShloMosaic Idealize.SL.Sem

/-- The kernel's program as printed terminates, faults nowhere and leaves its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- And the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The three rewritten sign-bit windows, one per pallas_call. -/
theorem preserves : Cert.preserves_Kernel_KernelIdeal :=
  ⟨IdealRules.sign_bit.statement Cert.KernelIdeal.S10000x64 .f32,
   IdealRules.sign_bit.statement Cert.KernelIdeal.S10000x64 .f32,
   IdealRules.sign_bit.statement Cert.KernelIdeal.S10000x64 .f32⟩

/-- Both programs end at the specification's two functions of argument arrays that agree. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.res_users m' c).trans ?_
    rw [(hagree c).1, (hagree c).2.1, (hagree c).2.2.1, (hagree c).2.2.2.1, (hagree c).2.2.2.2.1, (hagree c).2.2.2.2.2]
  · refine (Cert.ReferenceIdeal.RefValue.res_items m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
